-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1000000 : Shape := ⟨2, ![64, 1000000]⟩
abbrev S_ : Shape := ⟨0, ![]⟩

class Facts : Prop where
  bcast_S_S64x1000000 : S_.BroadcastsInDim S64x1000000 (![] : Fin 0 → Fin S64x1000000.rank)
  reducesTo_S64x1000000_S_d0_1 : S64x1000000.ReducesTo [0, 1] S_
  h_S_ : 0 < S_.numel

variable [Facts]

def fn {F : FTy → Type} [FloatOps F] (main_arg0 : FVec F S64x1000000 .f32) (main_arg1 : FVec F S64x1000000 .f32) : IVec S_ 1 :=
  let main_v0 : FVec F S64x1000000 .f32 := Host.absf main_arg0
  let main_cst : FVec F S_ .f32 := constant S_ .f32 0x7F800000#32
  let main_v1 : FVec F S64x1000000 .f32 := broadcastInDim S64x1000000 ![] bcast_S_S64x1000000 main_cst
  let main_v2 : IVec S64x1000000 1 := cmpf .olt main_v0 main_v1
  let main_c : IVec S_ 1 := constantI S_ 1 1#1
  let main_v3 : IVec S_ 1 := (fun x v => Host.reduce IntOp.andi x v reducesTo_S64x1000000_S_d0_1 h_S_) main_v2 main_c
  let main_v4 : FVec F S64x1000000 .f32 := Host.absf main_arg1
  let main_cst_0 : FVec F S_ .f32 := constant S_ .f32 0x7F800000#32
  let main_v5 : FVec F S64x1000000 .f32 := broadcastInDim S64x1000000 ![] bcast_S_S64x1000000 main_cst_0
  let main_v6 : IVec S64x1000000 1 := cmpf .olt main_v4 main_v5
  let main_c_1 : IVec S_ 1 := constantI S_ 1 1#1
  let main_v7 : IVec S_ 1 := (fun x v => Host.reduce IntOp.andi x v reducesTo_S64x1000000_S_d0_1 h_S_) main_v6 main_c_1
  let main_v8 : IVec S_ 1 := andi main_v3 main_v7
  main_v8
-- ==== Kernel.lean ====
abbrev S64x1000000 : Shape := ⟨2, ![64, 1000000]⟩
abbrev S3125x20480 : Shape := ⟨2, ![3125, 20480]⟩
abbrev S2x8x128 : Shape := ⟨3, ![2, 8, 128]⟩
abbrev S3125x256 : Shape := ⟨2, ![3125, 256]⟩
abbrev S1x8x128 : Shape := ⟨3, ![1, 8, 128]⟩
abbrev S3125 : Shape := ⟨1, ![3125]⟩
abbrev S3125x1 : Shape := ⟨2, ![3125, 1]⟩
abbrev S1 : Shape := ⟨1, ![1]⟩
abbrev S1x1 : Shape := ⟨2, ![1, 1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 42
  | .vmem => 10
  | .smem => 0
  | _ => 0

abbrev bufTy : (tb : Table) → Fin (tcTables nBuf tb) → BufTy
  | .hbm, ⟨0, _⟩ => ⟨S64x1000000, .f32⟩
  | .hbm, ⟨1, _⟩ => ⟨S64x1000000, .f32⟩
  | .hbm, ⟨2, _⟩ => ⟨S3125x20480, .f32⟩
  | .hbm, ⟨3, _⟩ => ⟨S3125x20480, .f32⟩
  | .hbm, ⟨4, _⟩ => ⟨S2x8x128, .f32⟩
  | .hbm, ⟨5, _⟩ => ⟨S2x8x128, .f32⟩
  | .hbm, ⟨6, _⟩ => ⟨S2x8x128, .f32⟩
  | .hbm, ⟨7, _⟩ => ⟨S2x1x1, .f32⟩
  | .hbm, ⟨8, _⟩ => ⟨S2, .f32⟩
  | .hbm, ⟨9, _⟩ => ⟨S_, .f32⟩
  | .hbm, ⟨10, _⟩ => ⟨S_, .f32⟩
  | .hbm, ⟨11, _⟩ => ⟨S2x1x1, .f32⟩
  | .hbm, ⟨12, _⟩ => ⟨S2, .f32⟩
  | .hbm, ⟨13, _⟩ => ⟨S_, .f32⟩
  | .hbm, ⟨14, _⟩ => ⟨S_, .f32⟩
  | .hbm, ⟨15, _⟩ => ⟨S2x1x1, .f32⟩
  | .hbm, ⟨16, _⟩ => ⟨S2, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .i1⟩
  | .hbm, ⟨24, _⟩ => ⟨S_, .f32⟩
  | .hbm, ⟨25, _⟩ => ⟨S_, .i1⟩
  | .hbm, ⟨26, _⟩ => ⟨S_, .i1⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S3125x256, .f32⟩
  | .local _ .vmem, ⟨1, _⟩ => ⟨S3125x256, .f32⟩
  | .local _ .vmem, ⟨2, _⟩ => ⟨S3125x256, .f32⟩
  | .local _ .vmem, ⟨3, _⟩ => ⟨S3125x256, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 40], ![false, false]⟩

def cc0_transform_0 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3125x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3125x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S64x1000000_S3125x20480 : S64x1000000.ShapeCasts S3125x20480
  inb_S1x8x128_S1x8x128_0_0_0 : ∀ a, (![0, 0, 0] : Fin 3 → Nat) a + S1x8x128.size a ≤ S1x8x128.size a
  h_S1x8x128 : 0 < S1x8x128.numel
  inb_S3125x256_S3125x256_0_0 : ∀ a, (![0, 0] : Fin 2 → Nat) a + S3125x256.size a ≤ S3125x256.size a
  h_S3125x256 : 0 < S3125x256.numel
  shapeCasts_S3125x256_S3125x256 : S3125x256.ShapeCasts S3125x256
  reduces_S3125x256_S3125 : S3125x256.Reduces [1] S3125
  shapeCasts_S3125_S3125x1 : S3125.ShapeCasts S3125x1
  reduces_S3125x1_S1 : S3125x1.Reduces [0] S1
  shapeCasts_S1_S1x1 : S1.ShapeCasts S1x1
  natLt_1_32 : 1 < 32
  shapeCasts_S1x8x128_S1x8x128 : S1x8x128.ShapeCasts S1x8x128
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3125x256.size a ≤ S3125x20480.size a
  hwx0_0 : ∀ i : grid0.Coords, EltTy.bits .f32 = 32 ∨ (Rect.block (s := S3125x20480) S3125x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3125x256.size a ≤ S3125x20480.size a
  hwx0_1 : ∀ i : grid0.Coords, EltTy.bits .f32 = 32 ∨ (Rect.block (s := S3125x20480) S3125x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

abbrev win0_0 : Pipeline.Window sig grid0 :=
  Pipeline.Window.ofSpec (Memref.whole main_v0) S3125x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3125x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1000000 : Shape := ⟨2, ![64, 1000000]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S64x1000000, .f32⟩
  | .hbm, ⟨1, _⟩ => ⟨S64x1000000, .f32⟩
  | .hbm, ⟨2, _⟩ => ⟨S64x1000000, .f32⟩
  | .hbm, ⟨3, _⟩ => ⟨S64x1000000, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S64x1000000, .f32⟩
  | .hbm, ⟨10, _⟩ => ⟨S64x1000000, .i1⟩
  | .hbm, ⟨11, _⟩ => ⟨S64x1000000, .f32⟩
  | .hbm, ⟨12, _⟩ => ⟨S64x1000000, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64x1000000, .f32⟩
  | .hbm, ⟨17, _⟩ => ⟨S64x1000000, .f32⟩
  | .hbm, ⟨18, _⟩ => ⟨S64x1000000, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .i1⟩
  | .hbm, ⟨23, _⟩ => ⟨S_, .f32⟩
  | .hbm, ⟨24, _⟩ => ⟨S_, .i1⟩
  | .hbm, ⟨25, _⟩ => ⟨S_, .i1⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_cst_9 : Ref sig .tc := ⟨.hbm, 32, rfl⟩
abbrev main_v20 : Ref sig .tc := ⟨.hbm, 33, rfl⟩
abbrev main_cst_10 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_11 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  reducesTo_S64x1000000_S_d0_1 : S64x1000000.ReducesTo [0, 1] S_
  h_S_ : 0 < S_.numel
  bcast_S_S64x1000000 : S_.BroadcastsInDim S64x1000000 (![] : Fin 0 → Fin S64x1000000.rank)

variable [Facts₀]

class Facts : Prop extends Facts₀ where

variable [Facts]
-- ==== Proof.Pieces.lean ====
/-
  What one run of the kernel body leaves in each of the three accumulator tiles, as a value.

  The body adds, to each tile, one number broadcast over the tile: the block's sum of squared differences (tile 2), its
  sum of labels where the output passes one half (tile 3), its sum of labels (tile 4). At the first block of a half
  (case A) the tile is first set to zero and that zero is what the update reads; at the other blocks (case B) the update
  reads what the block before left. So each tile ends as the update's arithmetic applied to the two input blocks and to
  the zero tile or the previous contents.
-/
import proofs.«181688_j39127152066864_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## A block that continues a half: the update over what the block before left -/

theorem out_B_2 (c : Dev nD) (i : grid0.Coords) (a2 : Memref sig .tc .vmem S3125x256 .f32) (h2 : a2.IsWhole)
    (a3 : Memref sig .tc .vmem S3125x256 .f32) (h3 : a3.IsWhole) (a4 : Memref sig .tc .vmem S1x8x128 .f32) (h4 : a4.IsWhole)
    (a5 : Memref sig .tc .vmem S1x8x128 .f32) (h5 : a5.IsWhole) (a6 : Memref sig .tc .vmem S1x8x128 .f32) (h6 : a6.IsWhole)
    (hc : ¬cond0_0 i) (x0 x1 : Vec F S3125x256 .f32) (xo2 xo3 xo4 : Vec F S1x8x128 .f32) :
    out0_B_2 c i a2 h2 a3 h3 a4 h4 a5 h5 a6 h6 hc x0 x1 xo2 xo3 xo4 = k0_pay10 x0 x1 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S3125x256) hz2, View.ld_unit_zero (S := S1x8x128) hz3]

theorem out_B_3 (c : Dev nD) (i : grid0.Coords) (a2 : Memref sig .tc .vmem S3125x256 .f32) (h2 : a2.IsWhole)
    (a3 : Memref sig .tc .vmem S3125x256 .f32) (h3 : a3.IsWhole) (a4 : Memref sig .tc .vmem S1x8x128 .f32) (h4 : a4.IsWhole)
    (a5 : Memref sig .tc .vmem S1x8x128 .f32) (h5 : a5.IsWhole) (a6 : Memref sig .tc .vmem S1x8x128 .f32) (h6 : a6.IsWhole)
    (hc : ¬cond0_0 i) (x0 x1 : Vec F S3125x256 .f32) (xo2 xo3 xo4 : Vec F S1x8x128 .f32) :
    out0_B_3 c i a2 h2 a3 h3 a4 h4 a5 h5 a6 h6 hc x0 x1 xo2 xo3 xo4 = k0_pay1 (k0_pay8 x0 x1) xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S3125x256) hz2, View.ld_unit_zero (S := S1x8x128) hz3]

theorem out_B_4 (c : Dev nD) (i : grid0.Coords) (a2 : Memref sig .tc .vmem S3125x256 .f32) (h2 : a2.IsWhole)
    (a3 : Memref sig .tc .vmem S3125x256 .f32) (h3 : a3.IsWhole) (a4 : Memref sig .tc .vmem S1x8x128 .f32) (h4 : a4.IsWhole)
    (a5 : Memref sig .tc .vmem S1x8x128 .f32) (h5 : a5.IsWhole) (a6 : Memref sig .tc .vmem S1x8x128 .f32) (h6 : a6.IsWhole)
    (hc : ¬cond0_0 i) (x0 x1 : Vec F S3125x256 .f32) (xo2 xo3 xo4 : Vec F S1x8x128 .f32) :
    out0_B_4 c i a2 h2 a3 h3 a4 h4 a5 h5 a6 h6 hc x0 x1 xo2 xo3 xo4 = k0_pay2 (k0_pay9 x1) xo4 := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S3125x256) hz2, View.ld_unit_zero (S := S1x8x128) hz3]

/-! ## The first block of a half: the update over the zero tile -/

theorem out_A_2 (c : Dev nD) (i : grid0.Coords) (a2 : Memref sig .tc .vmem S3125x256 .f32) (h2 : a2.IsWhole)
    (a3 : Memref sig .tc .vmem S3125x256 .f32) (h3 : a3.IsWhole) (a4 : Memref sig .tc .vmem S1x8x128 .f32) (h4 : a4.IsWhole)
    (a5 : Memref sig .tc .vmem S1x8x128 .f32) (h5 : a5.IsWhole) (a6 : Memref sig .tc .vmem S1x8x128 .f32) (h6 : a6.IsWhole)
    (hc : cond0_0 i) (x0 x1 : Vec F S3125x256 .f32) :
    out0_A_2 c i a2 h2 a3 h3 a4 h4 a5 h5 a6 h6 hc x0 x1 = k0_pay10 x0 x1 k0_pay3 := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread, h6.read_unread,
    View.ld_unit_zero (S := S3125x256) hz2, View.ld_unit_zero (S := S1x8x128) hz3]

theorem out_A_3 (c : Dev nD) (i : grid0.Coords) (a2 : Memref sig .tc .vmem S3125x256 .f32) (h2 : a2.IsWhole)
    (a3 : Memref sig .tc .vmem S3125x256 .f32) (h3 : a3.IsWhole) (a4 : Memref sig .tc .vmem S1x8x128 .f32) (h4 : a4.IsWhole)
    (a5 : Memref sig .tc .vmem S1x8x128 .f32) (h5 : a5.IsWhole) (a6 : Memref sig .tc .vmem S1x8x128 .f32) (h6 : a6.IsWhole)
    (hc : cond0_0 i) (x0 x1 : Vec F S3125x256 .f32) :
    out0_A_3 c i a2 h2 a3 h3 a4 h4 a5 h5 a6 h6 hc x0 x1 = k0_pay1 (k0_pay8 x0 x1) k0_pay4 := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread, h6.read_unread,
    View.ld_unit_zero (S := S3125x256) hz2, View.ld_unit_zero (S := S1x8x128) hz3]

theorem out_A_4 (c : Dev nD) (i : grid0.Coords) (a2 : Memref sig .tc .vmem S3125x256 .f32) (h2 : a2.IsWhole)
    (a3 : Memref sig .tc .vmem S3125x256 .f32) (h3 : a3.IsWhole) (a4 : Memref sig .tc .vmem S1x8x128 .f32) (h4 : a4.IsWhole)
    (a5 : Memref sig .tc .vmem S1x8x128 .f32) (h5 : a5.IsWhole) (a6 : Memref sig .tc .vmem S1x8x128 .f32) (h6 : a6.IsWhole)
    (hc : cond0_0 i) (x0 x1 : Vec F S3125x256 .f32) :
    out0_A_4 c i a2 h2 a3 h3 a4 h4 a5 h5 a6 h6 hc x0 x1 = k0_pay2 (k0_pay9 x1) k0_pay5 := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread, h6.read_unread,
    View.ld_unit_zero (S := S3125x256) hz2, View.ld_unit_zero (S := S1x8x128) hz3]

end Cert.KernelIdeal.Pieces

end
-- ==== Proof.Spec.lean ====
/-
  What both programs compute, stated with neither of them in sight.

  Per element, with `o` an entry of the first input and `l` the entry of the second at the same place: the squared
  difference `(o - l)²`, the label counted where the output passes one half, `l · [o > 1/2]`, and the label counted where
  it does not, `l · (1 - [o > 1/2])`. Each program sums such terms over all 64 000 000 places and feeds three sums to one
  scalar formula (`tail`): the mean squared difference plus half the negated logarithm of a guarded ratio.

  The kernel sees the inputs re-laid as a 3125 × 20480 matrix and walks 80 column blocks of width 256 (`col`), keeping
  running sums that restart every 40 blocks (`acc`).
-/
import Idealize.ShloMosaic.PureOps.Ideal
import Idealize.ShloMosaic.Lib.ValueIdx

noncomputable section

namespace Cert.Bridge

open Idealize.ShloMosaic Idealize.ShloMosaic.ValueIdx

/-- The inputs' shape; the matrix they are re-laid to; one column block of it; one accumulator tile; the accumulator
    arrays (one tile per half of the blocks); a scalar. -/
abbrev SArg : Shape := ⟨2, ![64, 1000000]⟩
abbrev SMat : Shape := ⟨2, ![3125, 20480]⟩
abbrev SBlk : Shape := ⟨2, ![3125, 256]⟩
abbrev SAcc : Shape := ⟨3, ![1, 8, 128]⟩
abbrev SOut : Shape := ⟨3, ![2, 8, 128]⟩
abbrev S0 : Shape := ⟨0, ![]⟩

/-- `[o > 1/2]` as an extended real: `1` or `0`. -/
def ind (o : EReal) : EReal := (((Ideal.cmp .ogt o (Ideal.ofBits .f32 0x3F000000#32)).toNat : ℝ) : EReal)

/-- The squared difference. -/
def sqd (o l : EReal) : EReal := (o - l) * (o - l)

/-- The label where the output passes one half. -/
def tpv (o l : EReal) : EReal := l * ind o

/-- The label where the output does not pass one half (`0x3F800000` is the word of `1.0`). -/
def fnv (o l : EReal) : EReal := l * (Ideal.ofBits .f32 0x3F800000#32 - ind o)

/-- Column `c` of column block `t`: `256 t + c`. -/
def col (t : Fin 80) (c : Fin 256) : Fin 20480 := ⟨256 * t.val + c.val, by have := t.isLt; have := c.isLt; omega⟩

/-- The running sum after block `n` of per-block terms `part`: it restarts at the blocks divisible by 40. -/
def acc {M : Type} [AddCommMonoid M] (part : ℕ → M) : ℕ → M
  | 0 => part 0
  | n + 1 => if (n + 1) % 40 = 0 then part (n + 1) else acc part n + part (n + 1)

/-- The scalar formula both programs end with, of the sum of squared differences `sq`, the count `tp` and the count
    `fn`: `sq / 64000000 + 1/2 · (-log (coeff + 1e-10))`, where `coeff` is `1` if both counts vanish, `0` if only `tp`
    does, and `tp / (tp + fn)` otherwise. The words are those of `6.4e7`, `0.5`, `1.0` and `1e-10` in binary32. -/
def tail {F : FTy → Type} [FloatOps F] (sq tp fn : FVec F S0 .f32) : FVec F S0 .f32 :=
  addf (Host.divf sq (constant S0 .f32 0x4C742400#32))
    (mulf (constant S0 .f32 0x3F000000#32)
      (Host.negf (Host.log (addf
        (select (andi (cmpf .oeq tp (constant S0 .f32 0x00000000#32)) (cmpf .oeq fn (constant S0 .f32 0x00000000#32)))
          (constant S0 .f32 0x3F800000#32)
          (select (cmpf .oeq tp (constant S0 .f32 0x00000000#32)) (constant S0 .f32 0x00000000#32)
            (Host.divf tp (addf tp fn))))
        (constant S0 .f32 0x2EDBE6FF#32)))))

end Cert.Bridge

end
-- ==== Proof.Payloads.lean ====
/-
  The body's arithmetic at an index, read over the extended reals.

  Each update adds to a tile entry ONE number: the block's total of a per-element term, taken first along the 256
  columns of a row and then along the 3125 rows. The term is the squared difference, the label where the output passes
  one half, or the label alone.
-/
import proofs.«181688_j39127152066864_2_alg».proof.Proof.Gen.KernelIdeal.Skeleton
import proofs.«181688_j39127152066864_2_alg».proof.Proof.Spec
import Idealize.ShloMosaic.PureOps.Ideal.Laws
import Idealize.ShloMosaic.Lib.Pipeline.Value
import Idealize.ShloMosaic.Lib.ValueIdx

noncomputable section

open Idealize.ShloMosaic Idealize.ShloMosaic.ValueIdx Idealize.SL.Sem

namespace Cert.KernelIdeal.Payloads

open Cert.KernelIdeal Cert.KernelIdeal.Gen Cert.Bridge

/-- A one-entry vector has one index. -/
theorem idx1_eq (k k' : S1.Idx) : k = k' :=
  funext fun a => match a with
    | ⟨0, hlt⟩ => Fin.ext (by
        have h : (k ⟨0, hlt⟩).val < 1 := (k ⟨0, hlt⟩).isLt
        have h' : (k' ⟨0, hlt⟩).val < 1 := (k' ⟨0, hlt⟩).isLt
        omega)

/-- A column of row totals re-laid as an n × 1 matrix reads the total of its row. -/
theorem col_apply {α : Type} (v : S3125.Idx → α) (h : S3125.ShapeCasts S3125x1) (r : Fin 3125) :
    shapeCast S3125x1 v h (ix2 r (0 : Fin 1)) = v (ix1 r) :=
  shapeCast_apply v h _ _ (by
    rw [Shape.rowMajor_val_two, Shape.rowMajor_val_one]
    show r.val = r.val * 1 + 0
    omega)

/-- The block's total of `v`, as the body computes and spreads it over a tile: the sum over rows of the sums over columns. -/
theorem total_apply (v : FVec Ideal S3125x256 .f32) (hr1 : S3125x256.Reduces [1] S3125) (hc1 : S3125.ShapeCasts S3125x1)
    (hr0 : S3125x1.Reduces [0] S1) (hc2 : S1.ShapeCasts S1x1) (hc3 : S1x1.ShapeCasts S1x1x1)
    (hb : S1x1x1.Broadcasts S1x8x128) (hacc : (0x00000000#32 : BitVec 32) = 0x00000000#32) (y : S1x8x128.Idx) :
    broadcastTo S1x8x128 (shapeCast S1x1x1 (shapeCast S1x1
      (multiReduction .add [0] S1 (shapeCast S3125x1 (multiReduction .add [1] S3125 v 0x00000000#32 hr1 (.inl rfl) hacc) hc1)
        0x00000000#32 hr0 (.inl rfl) hacc) hc2) hc3) hb y
      = ∑ r : Fin 3125, ∑ c : Fin 256, v (ix2 r c) := by
  have e : ∀ k : S1.Idx, broadcastTo S1x8x128 (shapeCast S1x1x1 (shapeCast S1x1
      (multiReduction .add [0] S1 (shapeCast S3125x1 (multiReduction .add [1] S3125 v 0x00000000#32 hr1 (.inl rfl) hacc) hc1)
        0x00000000#32 hr0 (.inl rfl) hacc) hc2) hc3) hb y
      = multiReduction .add [0] S1 (shapeCast S3125x1 (multiReduction .add [1] S3125 v 0x00000000#32 hr1 (.inl rfl) hacc) hc1)
        0x00000000#32 hr0 (.inl rfl) hacc k := fun k => by
    unfold broadcastTo shapeCast
    exact congrArg _ (idx1_eq _ _)
  refine (e (ix1 (0 : Fin 1))).trans ?_
  refine (Ideal.multiReduction_add_single _ 0x00000000#32 hr0 (.inl rfl) hacc (ix1 (0 : Fin 1))).trans ?_
  refine Finset.sum_congr rfl fun r _ => ?_
  have e1 : hr0.lift (ix1 (0 : Fin 1)) r = ix2 r (0 : Fin 1) := funext fun a => match a with
    | ⟨0, _⟩ => rfl
    | ⟨1, _⟩ => rfl
  refine (congrArg _ e1).trans ?_
  refine (col_apply _ hc1 r).trans ?_
  refine (Ideal.multiReduction_add_single v 0x00000000#32 hr1 (.inl rfl) hacc (ix1 r)).trans ?_
  refine Finset.sum_congr rfl fun c _ => ?_
  have e2 : hr1.lift (ix1 r) c = ix2 r c := funext fun a => match a with
    | ⟨0, _⟩ => rfl
    | ⟨1, _⟩ => rfl
  exact congrArg v e2

/-- A one-bit word widened to 32 bits and read as a signed integer is the bit. -/
theorem bit_toInt : ∀ b : BitVec 1, (b.setWidth 32).toInt = (b.toNat : ℤ) := by decide

/-- The update of tile 2 at an entry: what was there plus the block's total of squared differences. -/
theorem pay10_apply (x0 x1 : Vec Ideal S3125x256 .f32) (a : Vec Ideal S1x8x128 .f32) (y : S1x8x128.Idx) :
    k0_pay10 (F := Ideal) x0 x1 a y = a y + ∑ r : Fin 3125, ∑ c : Fin 256, sqd (x0 (ix2 r c)) (x1 (ix2 r c)) := by
  unfold k0_pay10 k0_pay6 k0_pay7
  simp only [shapeCast_self]
  refine (addf_apply _ _ y).trans ?_
  refine (congrArg (a y + ·) (total_apply _ _ _ _ _ _ _ _ y)).trans ?_
  rfl

/-- The update of tile 3 at an entry: what was there plus the block's total of labels where the output passes one half. -/
theorem pay1_apply (x0 x1 : Vec Ideal S3125x256 .f32) (a : Vec Ideal S1x8x128 .f32) (y : S1x8x128.Idx) :
    k0_pay1 (F := Ideal) (k0_pay8 x0 x1) a y = a y + ∑ r : Fin 3125, ∑ c : Fin 256, tpv (x0 (ix2 r c)) (x1 (ix2 r c)) := by
  unfold k0_pay1 k0_pay8 k0_pay6 k0_pay7
  simp only [shapeCast_self]
  refine (addf_apply _ _ y).trans ?_
  refine (congrArg (a y + ·) (total_apply _ _ _ _ _ _ _ _ y)).trans ?_
  refine congrArg (a y + ·) (Finset.sum_congr rfl fun r _ => Finset.sum_congr rfl fun c _ => ?_)
  show x1 (ix2 r c) * (((((Ideal.cmp .ogt (x0 (ix2 r c)) (Ideal.ofBits .f32 0x3F000000#32)).setWidth 32).toInt : ℝ)) : EReal) = _
  rw [bit_toInt, Int.cast_natCast]
  rfl

/-- The update of tile 4 at an entry: what was there plus the block's total of labels. -/
theorem pay2_apply (x1 : Vec Ideal S3125x256 .f32) (a : Vec Ideal S1x8x128 .f32) (y : S1x8x128.Idx) :
    k0_pay2 (F := Ideal) (k0_pay9 x1) a y = a y + ∑ r : Fin 3125, ∑ c : Fin 256, x1 (ix2 r c) := by
  unfold k0_pay2 k0_pay9 k0_pay7
  simp only [shapeCast_self]
  refine (addf_apply _ _ y).trans ?_
  exact congrArg (a y + ·) (total_apply _ _ _ _ _ _ _ _ y)

/-- The zero tile is zero at every entry. -/
theorem pay3_apply (y : S1x8x128.Idx) : k0_pay3 (F := Ideal) y = 0 := Ideal.ofBits_zero_f32
theorem pay4_apply (y : S1x8x128.Idx) : k0_pay4 (F := Ideal) y = 0 := Ideal.ofBits_zero_f32
theorem pay5_apply (y : S1x8x128.Idx) : k0_pay5 (F := Ideal) y = 0 := Ideal.ofBits_zero_f32

end Cert.KernelIdeal.Payloads

end
-- ==== Proof.Sums.lean ====
/-
  Finite sums behind the bridge between the two programs.

  * The 80 column blocks of width 256 tile the 20480 columns of the matrix, so the blockwise triple sum is the sum
    over the whole matrix (`sum_blocks`).
  * Re-laying an array under another shape with as many elements is a bijection of index sets, so it keeps the sum
    (`sum_reshape`).
  * The running sum that restarts at every multiple of 40 is, after block `n`, the sum of the terms from the last
    multiple of 40 up to `n` (`acc_eq`); the two halves together give all 80 terms (`acc_total`).
  * With real labels, the labels summed minus the labels counted where the output passes one half is the labels
    counted where it does not (`fn_law`).
-/
import proofs.«181688_j39127152066864_2_alg».proof.Proof.Spec
import Idealize.ShloMosaic.PureOps.IdealRules
import Mathlib.Algebra.BigOperators.Intervals
import Mathlib.Algebra.BigOperators.Fin
import Mathlib.Data.EReal.Operations

noncomputable section

namespace Cert.Bridge

open Idealize.ShloMosaic Idealize.ShloMosaic.ValueIdx

/-! ## The column blocks tile the columns -/

/-- A block number and a column inside the block, against the column of the matrix: `(t, c) ↦ 256 t + c`, with
    inverse `b ↦ (b / 256, b % 256)`. -/
def colEquiv : Fin 80 × Fin 256 ≃ Fin 20480 where
  toFun p := col p.1 p.2
  invFun b := (⟨b.val / 256, by have := b.isLt; omega⟩, ⟨b.val % 256, by omega⟩)
  left_inv p := by
    rcases p with ⟨t, c⟩
    have ht := t.isLt
    have hc := c.isLt
    refine Prod.ext (Fin.ext ?_) (Fin.ext ?_)
    · show (256 * t.val + c.val) / 256 = t.val
      omega
    · show (256 * t.val + c.val) % 256 = c.val
      omega
  right_inv b := by
    refine Fin.ext ?_
    show 256 * (b.val / 256) + b.val % 256 = b.val
    omega

theorem sum_blocks {M : Type} [AddCommMonoid M] (h : SMat.Idx → M) :
    ∑ t : Fin 80, ∑ r : Fin 3125, ∑ c : Fin 256, h (ix2 r (col t c)) = ∑ i : SMat.Idx, h i := by
  rw [sum_idx2 h, Finset.sum_comm]
  refine Finset.sum_congr rfl fun r _ => ?_
  -- in row `r`: the double sum over (block, column in block) is the sum over the columns
  rw [← Fintype.sum_prod_type' (fun t c => h (ix2 r (col t c)))]
  exact Fintype.sum_equiv colEquiv _ _ fun _ => rfl

/-! ## Re-laying keeps the sum -/

theorem sum_reshape {M : Type} [AddCommMonoid M] (f : SArg.Idx → M) (hc : SArg.ShapeCasts SMat) :
    ∑ i : SMat.Idx, shapeCast SMat f hc i = ∑ j : SArg.Idx, f j :=
  Equiv.sum_comp (Shape.reshapeEquiv hc) f

/-! ## The running sums -/

theorem acc_eq {M : Type} [AddCommMonoid M] (part : ℕ → M) (n : ℕ) :
    acc part n = ∑ k ∈ Finset.Ico (n / 40 * 40) (n + 1), part k := by
  induction n with
  | zero => simp [acc]
  | succ n ih =>
    rw [acc]
    split_ifs with hm
    · -- a restart: the last multiple of 40 is `n + 1` itself
      have e : (n + 1) / 40 * 40 = n + 1 := by omega
      rw [e, Finset.sum_Ico_succ_top (le_refl _), Finset.Ico_self, Finset.sum_empty, zero_add]
    · -- no restart: the last multiple of 40 is that of `n`
      have e : (n + 1) / 40 * 40 = n / 40 * 40 := by omega
      have hle : n / 40 * 40 ≤ n + 1 := by omega
      rw [e, Finset.sum_Ico_succ_top hle, ih]

theorem acc_total {M : Type} [AddCommMonoid M] (part : ℕ → M) :
    acc part 39 + acc part 79 = ∑ k ∈ Finset.range 80, part k := by
  rw [acc_eq, acc_eq, Finset.range_eq_Ico]
  exact Finset.sum_Ico_consecutive part (by norm_num : (0 : ℕ) ≤ 40) (by norm_num : (40 : ℕ) ≤ 80)

/-! ## Real labels: what passes one half and what does not -/

/-- The cast from the reals to the extended reals goes through a finite sum. -/
private theorem coe_sum {ι : Type} (s : Finset ι) (g : ι → ℝ) :
    ∑ j ∈ s, (g j : EReal) = ((∑ j ∈ s, g j : ℝ) : EReal) := by
  induction s using Finset.cons_induction with
  | empty => simp
  | cons a s ha ih => rw [Finset.sum_cons, Finset.sum_cons, ih, EReal.coe_add]

theorem fn_law {ι : Type} [Fintype ι] (o l : ι → EReal) (hl : ∀ j, ∃ r : ℝ, l j = (r : EReal)) :
    (∑ j, l j) - (∑ j, tpv (o j) (l j)) = ∑ j, fnv (o j) (l j) := by
  choose r hr using hl
  have hone : Ideal.ofBits .f32 0x3F800000#32 = 1 := IdealRules.sign_bit.ideal_onePat .f32
  -- the indicator is the cast of a real number (0 or 1)
  let d : ι → ℝ := fun j => ((Ideal.cmp .ogt (o j) (Ideal.ofBits .f32 0x3F000000#32)).toNat : ℝ)
  have hind : ∀ j, ind (o j) = (d j : EReal) := fun _ => rfl
  -- each of the three sums is the cast of a real sum
  have h1 : ∑ j, l j = ((∑ j, r j : ℝ) : EReal) := by
    rw [← coe_sum]
    exact Finset.sum_congr rfl fun j _ => hr j
  have h2 : ∑ j, tpv (o j) (l j) = ((∑ j, r j * d j : ℝ) : EReal) := by
    rw [← coe_sum]
    refine Finset.sum_congr rfl fun j _ => ?_
    rw [tpv, hr j, hind j, EReal.coe_mul]
  have h3 : ∑ j, fnv (o j) (l j) = ((∑ j, r j * (1 - d j) : ℝ) : EReal) := by
    rw [← coe_sum]
    refine Finset.sum_congr rfl fun j _ => ?_
    rw [fnv, hone, hr j, hind j, EReal.coe_mul, EReal.coe_sub, EReal.coe_one]
  -- and in the reals it is distributivity
  rw [h1, h2, h3, ← EReal.coe_sub, ← Finset.sum_sub_distrib]
  congr 1
  exact Finset.sum_congr rfl fun j _ => by ring

end Cert.Bridge

end
-- ==== Proof.Accum.lean ====
/-
  The accumulator tiles block by block, and the three accumulator arrays at the end.

  After block `n` each tile holds, at every entry, the running sum of the per-block totals since the last restart
  (by induction on the block: the first block of a half starts from the zero tile, every other block adds to what the
  block before left). A tile is written back after the last block of its half, blocks 39 and 79, into row `0` or `1`
  of its array; the two write-backs cover the array, so entry `(p, ·, ·)` of each array ends at the running sum after
  block `40 p + 39`.
-/
import proofs.«181688_j39127152066864_2_alg».proof.Proof.Pieces
import proofs.«181688_j39127152066864_2_alg».proof.Proof.Payloads
import proofs.«181688_j39127152066864_2_alg».proof.Proof.Sums
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Accum

open Cert.KernelIdeal Cert.KernelIdeal.Gen Cert.Bridge Cert.KernelIdeal.Pieces Cert.KernelIdeal.Payloads

variable (m : (ℓ : Loc nD τ sig) → Buf (Elt Ideal) ℓ)

/-- Block `t` of the re-laid first and second input: 3125 rows, the 256 columns from `256 t`. -/
abbrev blk0 (c : Dev nD) (t : Fin cfg0.N) : Vec Ideal S3125x256 .f32 := iblk m c 0 t
abbrev blk1 (c : Dev nD) (t : Fin cfg0.N) : Vec Ideal S3125x256 .f32 := iblk m c 1 t

/-- The label alone, as a term of an output entry and a label entry. -/
abbrev lab (_ l : EReal) : EReal := l

/-- Block `k`'s total of the per-element term `g` (zero past the last block). -/
def blockTotal (g : EReal → EReal → EReal) (c : Dev nD) (k : ℕ) : EReal :=
  if h : k < cfg0.N then ∑ r : Fin 3125, ∑ cc : Fin 256, g (blk0 m c ⟨k, h⟩ (ix2 r cc)) (blk1 m c ⟨k, h⟩ (ix2 r cc)) else 0

/-- The three tiles after block `n`: constant at the running sums of the three per-block totals. -/
def tiles (c : Dev nD) (n : ℕ) : Vec Ideal S1x8x128 .f32 × Vec Ideal S1x8x128 .f32 × Vec Ideal S1x8x128 .f32 :=
  (fun _ => acc (blockTotal m sqd c) n, fun _ => acc (blockTotal m tpv c) n, fun _ => acc (blockTotal m lab c) n)

theorem blockTotal_of_lt (g : EReal → EReal → EReal) (c : Dev nD) (k : ℕ) (h : k < cfg0.N) :
    blockTotal m g c k = ∑ r : Fin 3125, ∑ cc : Fin 256, g (blk0 m c ⟨k, h⟩ (ix2 r cc)) (blk1 m c ⟨k, h⟩ (ix2 r cc)) := by
  unfold blockTotal
  exact dif_pos h

theorem tiles_def (c : Dev nD) (n : ℕ) : tiles m c n
    = (fun _ => acc (blockTotal m sqd c) n, fun _ => acc (blockTotal m tpv c) n, fun _ => acc (blockTotal m lab c) n) := rfl

/-- What the tiles hold after block `n` is the running sums: by induction on the block. -/
theorem outsAt_eq (c : Dev nD) : ∀ (n : ℕ) (h : n < cfg0.N), outsAt0 m c n h = tiles m c n
  | 0, h => (outsAt0_A m c ⟨0, h⟩ rfl).trans (by
    rw [tiles_def m c 0]
    refine congrArg₂ Prod.mk ?_ (congrArg₂ Prod.mk ?_ ?_)
    · refine (out_A_2 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr (Nat.zero_mod _)) (blk0 m c ⟨0, h⟩) (blk1 m c ⟨0, h⟩)).trans ?_
      funext y
      rw [pay10_apply, pay3_apply, zero_add]
      exact (blockTotal_of_lt m sqd c 0 h).symm
    · refine (out_A_3 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr (Nat.zero_mod _)) (blk0 m c ⟨0, h⟩) (blk1 m c ⟨0, h⟩)).trans ?_
      funext y
      rw [pay1_apply, pay4_apply, zero_add]
      exact (blockTotal_of_lt m tpv c 0 h).symm
    · refine (out_A_4 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr (Nat.zero_mod _)) (blk0 m c ⟨0, h⟩) (blk1 m c ⟨0, h⟩)).trans ?_
      funext y
      rw [pay2_apply, pay5_apply, zero_add]
      exact (blockTotal_of_lt m lab c 0 h).symm
    )
  | n + 1, h => by
    have ih := outsAt_eq c n (Nat.lt_of_succ_lt h)
    by_cases h0 : (n + 1) % 40 = 0
    · refine (outsAt0_A m c ⟨n + 1, h⟩ h0).trans ?_
      rw [tiles_def m c (n + 1)]
      refine congrArg₂ Prod.mk ?_ (congrArg₂ Prod.mk ?_ ?_)
      · refine (out_A_2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) ((hcond0_0 ⟨n + 1, h⟩).mpr h0) (blk0 m c ⟨n + 1, h⟩) (blk1 m c ⟨n + 1, h⟩)).trans ?_
        funext y
        rw [pay10_apply, pay3_apply, zero_add]
        show _ = (if (n + 1) % 40 = 0 then blockTotal m sqd c (n + 1) else acc (blockTotal m sqd c) n + blockTotal m sqd c (n + 1))
        rw [if_pos h0]
        exact (blockTotal_of_lt m sqd c (n + 1) h).symm
      · refine (out_A_3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) ((hcond0_0 ⟨n + 1, h⟩).mpr h0) (blk0 m c ⟨n + 1, h⟩) (blk1 m c ⟨n + 1, h⟩)).trans ?_
        funext y
        rw [pay1_apply, pay4_apply, zero_add]
        show _ = (if (n + 1) % 40 = 0 then blockTotal m tpv c (n + 1) else acc (blockTotal m tpv c) n + blockTotal m tpv c (n + 1))
        rw [if_pos h0]
        exact (blockTotal_of_lt m tpv c (n + 1) h).symm
      · refine (out_A_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) ((hcond0_0 ⟨n + 1, h⟩).mpr h0) (blk0 m c ⟨n + 1, h⟩) (blk1 m c ⟨n + 1, h⟩)).trans ?_
        funext y
        rw [pay2_apply, pay5_apply, zero_add]
        show _ = (if (n + 1) % 40 = 0 then blockTotal m lab c (n + 1) else acc (blockTotal m lab c) n + blockTotal m lab c (n + 1))
        rw [if_pos h0]
        exact (blockTotal_of_lt m lab c (n + 1) h).symm

    · refine (outsAt0_B m c ⟨n + 1, h⟩ h0).trans ?_
      have e : outsAt0 m c ((⟨n + 1, h⟩ : Fin cfg0.N).val - 1) (Nat.lt_of_le_of_lt (Nat.sub_le _ _) (⟨n + 1, h⟩ : Fin cfg0.N).isLt)
          = tiles m c n := ih
      rw [e, tiles_def m c (n + 1)]
      refine congrArg₂ Prod.mk ?_ (congrArg₂ Prod.mk ?_ ?_)
      · refine (out_B_2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh)) (blk0 m c ⟨n + 1, h⟩) (blk1 m c ⟨n + 1, h⟩)
          (tiles m c n).1 (tiles m c n).2.1 (tiles m c n).2.2).trans ?_
        funext y
        rw [pay10_apply]
        show acc (blockTotal m sqd c) n + _ = (if (n + 1) % 40 = 0 then blockTotal m sqd c (n + 1) else acc (blockTotal m sqd c) n + blockTotal m sqd c (n + 1))
        rw [if_neg h0]
        exact congrArg (acc (blockTotal m sqd c) n + ·) (blockTotal_of_lt m sqd c (n + 1) h).symm
      · refine (out_B_3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh)) (blk0 m c ⟨n + 1, h⟩) (blk1 m c ⟨n + 1, h⟩)
          (tiles m c n).1 (tiles m c n).2.1 (tiles m c n).2.2).trans ?_
        funext y
        rw [pay1_apply]
        show acc (blockTotal m tpv c) n + _ = (if (n + 1) % 40 = 0 then blockTotal m tpv c (n + 1) else acc (blockTotal m tpv c) n + blockTotal m tpv c (n + 1))
        rw [if_neg h0]
        exact congrArg (acc (blockTotal m tpv c) n + ·) (blockTotal_of_lt m tpv c (n + 1) h).symm
      · refine (out_B_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh)) (blk0 m c ⟨n + 1, h⟩) (blk1 m c ⟨n + 1, h⟩)
          (tiles m c n).1 (tiles m c n).2.1 (tiles m c n).2.2).trans ?_
        funext y
        rw [pay2_apply]
        show acc (blockTotal m lab c) n + _ = (if (n + 1) % 40 = 0 then blockTotal m lab c (n + 1) else acc (blockTotal m lab c) n + blockTotal m lab c (n + 1))
        rw [if_neg h0]
        exact congrArg (acc (blockTotal m lab c) n + ·) (blockTotal_of_lt m lab c (n + 1) h).symm

end Cert.KernelIdeal.Accum

end
-- ==== Proof.Finals.lean ====
/-
  The three accumulator arrays when the kernel has run.

  Each tile is written back twice, after blocks 39 and 79, into rows 0 and 1 of its 2 × 8 × 128 array, and the two
  write-backs cover the array. So every entry of row `p` ends at the running sum after block `40 p + 39`.
-/
import proofs.«181688_j39127152066864_2_alg».proof.Proof.Accum

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Finals

open Cert.KernelIdeal Cert.KernelIdeal.Gen Cert.Bridge Cert.KernelIdeal.Accum

variable (m : (ℓ : Loc nD τ sig) → Buf (Elt Ideal) ℓ)

/-- An accumulator array whose row `p` is constant at the running sum of `part` after block `40 p + 39`. -/
def fin (part : ℕ → EReal) : S2x8x128.Idx → EReal := fun i => acc part (40 * (i 0).val + 39)

/-! ## Tile 2 -/

/-- Where tile 2's block sits at block `t`: row `t / 40` of its array, the whole 8 × 128 face. -/
theorem idx_out2 : ∀ t : Fin cfg0.N, win0_2.index t (0 : Fin 3) = t.val / 40 ∧ win0_2.index t (1 : Fin 3) = 0 ∧ win0_2.index t (2 : Fin 3) = 0 :=
  (by decide +kernel : ∀ t : Fin grid0.N, win0_2.index t (0 : Fin 3) = t.val / 40 ∧ win0_2.index t (1 : Fin 3) = 0 ∧ win0_2.index t (2 : Fin 3) = 0)

theorem xsize_out2 : ∀ t : Fin cfg0.N, win0_2.xsize (grid0.coords t) (0 : Fin 3) = 1 ∧ win0_2.xsize (grid0.coords t) (1 : Fin 3) = 8 ∧ win0_2.xsize (grid0.coords t) (2 : Fin 3) = 128 :=
  (by decide +kernel : ∀ t : Fin grid0.N, win0_2.xsize (grid0.coords t) (0 : Fin 3) = 1 ∧ win0_2.xsize (grid0.coords t) (1 : Fin 3) = 8 ∧ win0_2.xsize (grid0.coords t) (2 : Fin 3) = 128)

/-- A write-back happens after the last block of a half (`t % 40 = 39`) and writes row `t / 40`: what it writes is
    the running sum after block `t = 40 (t / 40) + 39`. -/
theorem flushed_eq_2 (c : Dev nD) (t : Fin cfg0.N) (hf : (cfg0.win 2).flush t = true) :
    (dats m 0 c).flushed 2 t = ((cfg0.win 2).blk t).view.read (Elt Ideal) (fin (blockTotal m sqd c)) := by
  have h39 : t.val % 40 = 39 := (flush0_2 t).mp hf
  show (cfg0.win 2).cut (grid0.coords t) ((dats m 0 c).after 2 t) = _
  rw [after0_2, outsAt_eq]
  funext y
  rw [View.read_apply]
  show acc (blockTotal m sqd c) t.val = acc (blockTotal m sqd c) (40 * ((((cfg0.win 2).blk t).view.emb y) 0).val + 39)
  refine congrArg (acc _) ?_
  show t.val = 40 * (win0_2.index t 0 * 1 + 1 * (y 0).val) + 39
  have hy : (y 0).val < win0_2.xsize (grid0.coords t) 0 := (y 0).isLt
  rw [(xsize_out2 t).1] at hy
  rw [(idx_out2 t).1]
  omega

/-- Every entry `(p, ·, ·)` of the array lies in the block written back after block `40 p + 39`. -/
theorem cover_2 (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 128 := (i 2).isLt
  have hN : cfg0.N = 80 := N_0
  have hT : 40 * (i 0).val + 39 < cfg0.N := by rw [hN]; omega
  refine ⟨⟨40 * (i 0).val + 39, hT⟩, (flush0_2 _).mpr (by show (40 * (i 0).val + 39) % 40 = 39; omega), ?_⟩
  show i ∈ ((View.whole main_v2_0).slice (win0_2.rect ⟨40 * (i 0).val + 39, hT⟩)).set
  rw [View.set_slice_whole, Rect.mem_set_unit]
  intro a
  have hx := xsize_out2 ⟨40 * (i 0).val + 39, hT⟩
  have hidx := idx_out2 ⟨40 * (i 0).val + 39, hT⟩
  match a with
  | ⟨0, _⟩ =>
    show win0_2.index ⟨40 * (i 0).val + 39, hT⟩ 0 * win0_2.size 0 ≤ (i 0 : Nat) ∧ (i 0 : Nat) < win0_2.index ⟨40 * (i 0).val + 39, hT⟩ 0 * win0_2.size 0 + win0_2.xsize (grid0.coords ⟨40 * (i 0).val + 39, hT⟩) 0
    rw [hidx.1, hx.1]
    show (40 * (i 0).val + 39) / 40 * 1 ≤ (i 0 : Nat) ∧ (i 0 : Nat) < (40 * (i 0).val + 39) / 40 * 1 + 1
    omega
  | ⟨1, _⟩ =>
    show win0_2.index ⟨40 * (i 0).val + 39, hT⟩ 1 * win0_2.size 1 ≤ (i 1 : Nat) ∧ (i 1 : Nat) < win0_2.index ⟨40 * (i 0).val + 39, hT⟩ 1 * win0_2.size 1 + win0_2.xsize (grid0.coords ⟨40 * (i 0).val + 39, hT⟩) 1
    rw [hidx.2.1, hx.2.1]
    omega
  | ⟨2, _⟩ =>
    show win0_2.index ⟨40 * (i 0).val + 39, hT⟩ 2 * win0_2.size 2 ≤ (i 2 : Nat) ∧ (i 2 : Nat) < win0_2.index ⟨40 * (i 0).val + 39, hT⟩ 2 * win0_2.size 2 + win0_2.xsize (grid0.coords ⟨40 * (i 0).val + 39, hT⟩) 2
    rw [hidx.2.2, hx.2.2]
    omega

/-- So the array ends with row `p` constant at the running sum after block `40 p + 39`. -/
theorem final_2 (c : Dev nD) : (dats m 0 c).arrAt 2 cfg0.N = fin (blockTotal m sqd c) :=
  (dats m 0 c).arrAt_eq_of_cover 2 (fin (blockTotal m sqd c)) (flushed_eq_2 m c) (cover_2 c)

/-! ## Tile 3 -/

/-- Where tile 3's block sits at block `t`: row `t / 40` of its array, the whole 8 × 128 face. -/
theorem idx_out3 : ∀ t : Fin cfg0.N, win0_3.index t (0 : Fin 3) = t.val / 40 ∧ win0_3.index t (1 : Fin 3) = 0 ∧ win0_3.index t (2 : Fin 3) = 0 :=
  (by decide +kernel : ∀ t : Fin grid0.N, win0_3.index t (0 : Fin 3) = t.val / 40 ∧ win0_3.index t (1 : Fin 3) = 0 ∧ win0_3.index t (2 : Fin 3) = 0)

theorem xsize_out3 : ∀ t : Fin cfg0.N, win0_3.xsize (grid0.coords t) (0 : Fin 3) = 1 ∧ win0_3.xsize (grid0.coords t) (1 : Fin 3) = 8 ∧ win0_3.xsize (grid0.coords t) (2 : Fin 3) = 128 :=
  (by decide +kernel : ∀ t : Fin grid0.N, win0_3.xsize (grid0.coords t) (0 : Fin 3) = 1 ∧ win0_3.xsize (grid0.coords t) (1 : Fin 3) = 8 ∧ win0_3.xsize (grid0.coords t) (2 : Fin 3) = 128)

/-- A write-back happens after the last block of a half (`t % 40 = 39`) and writes row `t / 40`: what it writes is
    the running sum after block `t = 40 (t / 40) + 39`. -/
theorem flushed_eq_3 (c : Dev nD) (t : Fin cfg0.N) (hf : (cfg0.win 3).flush t = true) :
    (dats m 0 c).flushed 3 t = ((cfg0.win 3).blk t).view.read (Elt Ideal) (fin (blockTotal m tpv c)) := by
  have h39 : t.val % 40 = 39 := (flush0_3 t).mp hf
  show (cfg0.win 3).cut (grid0.coords t) ((dats m 0 c).after 3 t) = _
  rw [after0_3, outsAt_eq]
  funext y
  rw [View.read_apply]
  show acc (blockTotal m tpv c) t.val = acc (blockTotal m tpv c) (40 * ((((cfg0.win 3).blk t).view.emb y) 0).val + 39)
  refine congrArg (acc _) ?_
  show t.val = 40 * (win0_3.index t 0 * 1 + 1 * (y 0).val) + 39
  have hy : (y 0).val < win0_3.xsize (grid0.coords t) 0 := (y 0).isLt
  rw [(xsize_out3 t).1] at hy
  rw [(idx_out3 t).1]
  omega

/-- Every entry `(p, ·, ·)` of the array lies in the block written back after block `40 p + 39`. -/
theorem cover_3 (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 128 := (i 2).isLt
  have hN : cfg0.N = 80 := N_0
  have hT : 40 * (i 0).val + 39 < cfg0.N := by rw [hN]; omega
  refine ⟨⟨40 * (i 0).val + 39, hT⟩, (flush0_3 _).mpr (by show (40 * (i 0).val + 39) % 40 = 39; omega), ?_⟩
  show i ∈ ((View.whole main_v2_1).slice (win0_3.rect ⟨40 * (i 0).val + 39, hT⟩)).set
  rw [View.set_slice_whole, Rect.mem_set_unit]
  intro a
  have hx := xsize_out3 ⟨40 * (i 0).val + 39, hT⟩
  have hidx := idx_out3 ⟨40 * (i 0).val + 39, hT⟩
  match a with
  | ⟨0, _⟩ =>
    show win0_3.index ⟨40 * (i 0).val + 39, hT⟩ 0 * win0_3.size 0 ≤ (i 0 : Nat) ∧ (i 0 : Nat) < win0_3.index ⟨40 * (i 0).val + 39, hT⟩ 0 * win0_3.size 0 + win0_3.xsize (grid0.coords ⟨40 * (i 0).val + 39, hT⟩) 0
    rw [hidx.1, hx.1]
    show (40 * (i 0).val + 39) / 40 * 1 ≤ (i 0 : Nat) ∧ (i 0 : Nat) < (40 * (i 0).val + 39) / 40 * 1 + 1
    omega
  | ⟨1, _⟩ =>
    show win0_3.index ⟨40 * (i 0).val + 39, hT⟩ 1 * win0_3.size 1 ≤ (i 1 : Nat) ∧ (i 1 : Nat) < win0_3.index ⟨40 * (i 0).val + 39, hT⟩ 1 * win0_3.size 1 + win0_3.xsize (grid0.coords ⟨40 * (i 0).val + 39, hT⟩) 1
    rw [hidx.2.1, hx.2.1]
    omega
  | ⟨2, _⟩ =>
    show win0_3.index ⟨40 * (i 0).val + 39, hT⟩ 2 * win0_3.size 2 ≤ (i 2 : Nat) ∧ (i 2 : Nat) < win0_3.index ⟨40 * (i 0).val + 39, hT⟩ 2 * win0_3.size 2 + win0_3.xsize (grid0.coords ⟨40 * (i 0).val + 39, hT⟩) 2
    rw [hidx.2.2, hx.2.2]
    omega

/-- So the array ends with row `p` constant at the running sum after block `40 p + 39`. -/
theorem final_3 (c : Dev nD) : (dats m 0 c).arrAt 3 cfg0.N = fin (blockTotal m tpv c) :=
  (dats m 0 c).arrAt_eq_of_cover 3 (fin (blockTotal m tpv c)) (flushed_eq_3 m c) (cover_3 c)

/-! ## Tile 4 -/

/-- Where tile 4's block sits at block `t`: row `t / 40` of its array, the whole 8 × 128 face. -/
theorem idx_out4 : ∀ t : Fin cfg0.N, win0_4.index t (0 : Fin 3) = t.val / 40 ∧ win0_4.index t (1 : Fin 3) = 0 ∧ win0_4.index t (2 : Fin 3) = 0 :=
  (by decide +kernel : ∀ t : Fin grid0.N, win0_4.index t (0 : Fin 3) = t.val / 40 ∧ win0_4.index t (1 : Fin 3) = 0 ∧ win0_4.index t (2 : Fin 3) = 0)

theorem xsize_out4 : ∀ t : Fin cfg0.N, win0_4.xsize (grid0.coords t) (0 : Fin 3) = 1 ∧ win0_4.xsize (grid0.coords t) (1 : Fin 3) = 8 ∧ win0_4.xsize (grid0.coords t) (2 : Fin 3) = 128 :=
  (by decide +kernel : ∀ t : Fin grid0.N, win0_4.xsize (grid0.coords t) (0 : Fin 3) = 1 ∧ win0_4.xsize (grid0.coords t) (1 : Fin 3) = 8 ∧ win0_4.xsize (grid0.coords t) (2 : Fin 3) = 128)

/-- A write-back happens after the last block of a half (`t % 40 = 39`) and writes row `t / 40`: what it writes is
    the running sum after block `t = 40 (t / 40) + 39`. -/
theorem flushed_eq_4 (c : Dev nD) (t : Fin cfg0.N) (hf : (cfg0.win 4).flush t = true) :
    (dats m 0 c).flushed 4 t = ((cfg0.win 4).blk t).view.read (Elt Ideal) (fin (blockTotal m lab c)) := by
  have h39 : t.val % 40 = 39 := (flush0_4 t).mp hf
  show (cfg0.win 4).cut (grid0.coords t) ((dats m 0 c).after 4 t) = _
  rw [after0_4, outsAt_eq]
  funext y
  rw [View.read_apply]
  show acc (blockTotal m lab c) t.val = acc (blockTotal m lab c) (40 * ((((cfg0.win 4).blk t).view.emb y) 0).val + 39)
  refine congrArg (acc _) ?_
  show t.val = 40 * (win0_4.index t 0 * 1 + 1 * (y 0).val) + 39
  have hy : (y 0).val < win0_4.xsize (grid0.coords t) 0 := (y 0).isLt
  rw [(xsize_out4 t).1] at hy
  rw [(idx_out4 t).1]
  omega

/-- Every entry `(p, ·, ·)` of the array lies in the block written back after block `40 p + 39`. -/
theorem cover_4 (c : Dev nD) (i : ((cfg0.win 4).arr.view.loc (c.tc : Thread nD τ)).2.ty.Idx) :
    ∃ t : Fin cfg0.N, (cfg0.win 4).flush t = true ∧ i ∈ ((cfg0.win 4).blk t).view.set := by
  have hi0 : (i 0).val < 2 := (i 0).isLt
  have hi1 : (i 1).val < 8 := (i 1).isLt
  have hi2 : (i 2).val < 128 := (i 2).isLt
  have hN : cfg0.N = 80 := N_0
  have hT : 40 * (i 0).val + 39 < cfg0.N := by rw [hN]; omega
  refine ⟨⟨40 * (i 0).val + 39, hT⟩, (flush0_4 _).mpr (by show (40 * (i 0).val + 39) % 40 = 39; omega), ?_⟩
  show i ∈ ((View.whole main_v2_2).slice (win0_4.rect ⟨40 * (i 0).val + 39, hT⟩)).set
  rw [View.set_slice_whole, Rect.mem_set_unit]
  intro a
  have hx := xsize_out4 ⟨40 * (i 0).val + 39, hT⟩
  have hidx := idx_out4 ⟨40 * (i 0).val + 39, hT⟩
  match a with
  | ⟨0, _⟩ =>
    show win0_4.index ⟨40 * (i 0).val + 39, hT⟩ 0 * win0_4.size 0 ≤ (i 0 : Nat) ∧ (i 0 : Nat) < win0_4.index ⟨40 * (i 0).val + 39, hT⟩ 0 * win0_4.size 0 + win0_4.xsize (grid0.coords ⟨40 * (i 0).val + 39, hT⟩) 0
    rw [hidx.1, hx.1]
    show (40 * (i 0).val + 39) / 40 * 1 ≤ (i 0 : Nat) ∧ (i 0 : Nat) < (40 * (i 0).val + 39) / 40 * 1 + 1
    omega
  | ⟨1, _⟩ =>
    show win0_4.index ⟨40 * (i 0).val + 39, hT⟩ 1 * win0_4.size 1 ≤ (i 1 : Nat) ∧ (i 1 : Nat) < win0_4.index ⟨40 * (i 0).val + 39, hT⟩ 1 * win0_4.size 1 + win0_4.xsize (grid0.coords ⟨40 * (i 0).val + 39, hT⟩) 1
    rw [hidx.2.1, hx.2.1]
    omega
  | ⟨2, _⟩ =>
    show win0_4.index ⟨40 * (i 0).val + 39, hT⟩ 2 * win0_4.size 2 ≤ (i 2 : Nat) ∧ (i 2 : Nat) < win0_4.index ⟨40 * (i 0).val + 39, hT⟩ 2 * win0_4.size 2 + win0_4.xsize (grid0.coords ⟨40 * (i 0).val + 39, hT⟩) 2
    rw [hidx.2.2, hx.2.2]
    omega

/-- So the array ends with row `p` constant at the running sum after block `40 p + 39`. -/
theorem final_4 (c : Dev nD) : (dats m 0 c).arrAt 4 cfg0.N = fin (blockTotal m lab c) :=
  (dats m 0 c).arrAt_eq_of_cover 4 (fin (blockTotal m lab c)) (flushed_eq_4 m c) (cover_4 c)

end Cert.KernelIdeal.Finals

end
-- ==== Proof.Totals.lean ====
/-
  The 80 block totals together are the sum over all places of the two inputs.

  Block `t` of a re-laid input is the 3125 rows and the columns `256 t … 256 t + 255` of the 3125 × 20480 matrix; the
  matrix is the input re-laid in row-major order. The blocks tile the matrix and the re-laying is a bijection of places,
  so summing a per-element term over all blocks sums it over all places of the inputs.
-/
import proofs.«181688_j39127152066864_2_alg».proof.Proof.Accum
import Idealize.ShloMosaic.Lib.StableHlo.Run

set_option maxRecDepth 16384

noncomputable section

open Idealize.ShloMosaic Idealize.ShloMosaic.TcCoe Idealize.ShloMosaic.ValueIdx Idealize.SL.Sem Idealize.ShloMosaic.StableHlo
open Idealize.ShloMosaic.Pipeline (Dat)

namespace Cert.KernelIdeal.Totals

open Cert.KernelIdeal Cert.KernelIdeal.Gen Cert.Bridge Cert.KernelIdeal.Accum

variable (m : (ℓ : Loc nD τ sig) → Buf (Elt Ideal) ℓ)

/-- The matrices the kernel reads are the inputs re-laid. -/
theorem V_v0 (c : Dev nD) : (V m c main_v0 : S3125x20480.Idx → EReal)
    = shapeCast S3125x20480 (m ((c.tc : Thread nD τ).loc main_arg0)) shapeCasts_S64x1000000_S3125x20480 := by
  show StableHlo.after hostOps0 (fun b => m (c, b)) (Proc.devRef .tc main_v0) = _
  after_results
  rfl

theorem V_v1 (c : Dev nD) : (V m c main_v1 : S3125x20480.Idx → EReal)
    = shapeCast S3125x20480 (m ((c.tc : Thread nD τ).loc main_arg1)) shapeCasts_S64x1000000_S3125x20480 := by
  show StableHlo.after hostOps0 (fun b => m (c, b)) (Proc.devRef .tc main_v1) = _
  after_results
  rfl

/-- Block `t` of either matrix starts at row 0 and column block `t`. -/
theorem idx_in0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx_in1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

/-- Entry `(r, cc)` of block `t` is entry `(r, 256 t + cc)` of the matrix. -/
theorem blk0_apply (c : Dev nD) (t : Fin cfg0.N) (r : Fin 3125) (cc : Fin 256) (j : Fin 20480) (hj : j.val = 256 * t.val + cc.val) :
    blk0 m c t (ix2 r cc) = (V m c main_v0 : S3125x20480.Idx → EReal) (ix2 r j) := by
  unfold blk0 iblk
  rw [View.read_apply]
  show V m c main_v0 _ = V m c main_v0 _
  congr 1
  funext a
  apply Fin.ext
  match a with
  | ⟨0, _⟩ => show win0_0.index t 0 * 3125 + 1 * r.val = r.val; rw [(idx_in0 t).1]; omega
  | ⟨1, _⟩ => show win0_0.index t 1 * 256 + 1 * cc.val = j.val; rw [(idx_in0 t).2, hj]; omega

theorem blk1_apply (c : Dev nD) (t : Fin cfg0.N) (r : Fin 3125) (cc : Fin 256) (j : Fin 20480) (hj : j.val = 256 * t.val + cc.val) :
    blk1 m c t (ix2 r cc) = (V m c main_v1 : S3125x20480.Idx → EReal) (ix2 r j) := by
  unfold blk1 iblk
  rw [View.read_apply]
  show V m c main_v1 _ = V m c main_v1 _
  congr 1
  funext a
  apply Fin.ext
  match a with
  | ⟨0, _⟩ => show win0_1.index t 0 * 3125 + 1 * r.val = r.val; rw [(idx_in1 t).1]; omega
  | ⟨1, _⟩ => show win0_1.index t 1 * 256 + 1 * cc.val = j.val; rw [(idx_in1 t).2, hj]; omega

/-- All 80 block totals of a per-element term `g` add up to its sum over all places of the inputs. -/
theorem total_eq (g : EReal → EReal → EReal) (c : Dev nD) :
    ∑ k ∈ Finset.range 80, blockTotal m g c k
      = ∑ j : SArg.Idx, g (m ((c.tc : Thread nD τ).loc main_arg0) j) (m ((c.tc : Thread nD τ).loc main_arg1) j) := by
  have hN : cfg0.N = 80 := N_0
  rw [Finset.sum_range]
  have e : ∀ t : Fin 80, blockTotal m g c t.val
      = ∑ r : Fin 3125, ∑ cc : Fin 256,
          (fun i : SMat.Idx => g ((V m c main_v0 : S3125x20480.Idx → EReal) i) ((V m c main_v1 : S3125x20480.Idx → EReal) i)) (ix2 r (col t cc)) := fun t => by
    have ht : t.val < cfg0.N := by rw [hN]; exact t.isLt
    rw [blockTotal_of_lt m g c t.val ht]
    refine Finset.sum_congr rfl fun r _ => Finset.sum_congr rfl fun cc _ => ?_
    rw [blk0_apply m c ⟨t.val, ht⟩ r cc (col t cc) rfl, blk1_apply m c ⟨t.val, ht⟩ r cc (col t cc) rfl]
  refine (Finset.sum_congr rfl fun t _ => e t).trans ?_
  refine (sum_blocks (fun i : SMat.Idx => g ((V m c main_v0 : S3125x20480.Idx → EReal) i) ((V m c main_v1 : S3125x20480.Idx → EReal) i))).trans ?_
  rw [V_v0, V_v1]
  exact sum_reshape (fun j => g (m ((c.tc : Thread nD τ).loc main_arg0) j) (m ((c.tc : Thread nD τ).loc main_arg1) j))
    shapeCasts_S64x1000000_S3125x20480

end Cert.KernelIdeal.Totals

end
-- ==== Proof.KernelRun.lean ====
/-
  The idealized kernel's run, read: its result is the scalar formula `tail` of three sums over all places of the inputs.

  After the kernel region the host reads entry `(p, 0, 0)` of each accumulator array for `p = 0, 1` and adds the two from
  zero: that is the running sum after block 39 plus the one after block 79, hence all 80 block totals, hence the sum of
  the per-element term over all places. The squared differences and the labels counted where the output passes one half
  enter `tail` as they are; its third argument is the sum of all labels minus the latter.
-/
import proofs.«181688_j39127152066864_2_alg».proof.Proof.Finals
import proofs.«181688_j39127152066864_2_alg».proof.Proof.Totals
import Idealize.ShloMosaic.Lib.StableHlo.Run

set_option maxRecDepth 16384

noncomputable section

open Idealize.ShloMosaic Idealize.ShloMosaic.TcCoe Idealize.ShloMosaic.ValueIdx Idealize.SL.Sem Idealize.ShloMosaic.StableHlo
open Idealize.ShloMosaic.Pipeline (Dat)

namespace Cert.KernelIdeal.KRun

open Cert.KernelIdeal Cert.KernelIdeal.Gen Cert.Bridge Cert.KernelIdeal.Accum Cert.KernelIdeal.Finals Cert.KernelIdeal.Totals

variable (m : (ℓ : Loc nD τ sig) → Buf (Elt Ideal) ℓ)

/-- What the host makes of one accumulator array: entries `(0, 0, 0)` and `(1, 0, 0)`, added from zero. -/
def hostSum (A : FVec Ideal S2x8x128 .f32) : FVec Ideal S_ .f32 :=
  Host.reduceAdd (shapeCast S2 (extractStridedSlice S2x1x1 ![0, 0, 0] A slices_S2x8x128_S2x1x1_0_0_0) shapeCasts_S2x1x1_S2)
    (constant S_ .f32 0x00000000#32) reducesTo_S2_S_d0 h_S_

/-- A sum over the places of a vector is the sum over its one coordinate. -/
theorem sum_idx1 {M : Type} [AddCommMonoid M] {n : ℕ} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ f (fun a => f (ix1 a))
    (fun i => congrArg f (eq_ix1 i))

/-- Of an array whose row `p` is constant at the running sum after block `40 p + 39`, that is all 80 terms. -/
theorem hostSum_fin (part : ℕ → EReal) : hostSum (fin part) = fun _ => ∑ k ∈ Finset.range 80, part k := by
  funext i
  show Ideal.hostReduceAdd reducesTo_S2_S_d0 _ (Ideal.ofBits .f32 0x00000000#32) i = _
  rw [Ideal.hostReduceAdd_total reducesTo_S2_S_d0 (fun b => b.elim0), Ideal.ofBits_zero_f32, zero_add]
  refine (sum_idx1 _).trans ?_
  rw [Fin.sum_univ_two, ← acc_total]
  have e : ∀ (k : Fin 2) (j : S2.Idx), j = ix1 k →
      shapeCast S2 (extractStridedSlice S2x1x1 ![0, 0, 0] (fin part) slices_S2x8x128_S2x1x1_0_0_0) shapeCasts_S2x1x1_S2 j
        = acc part (40 * k.val + 39) := fun k j hj => by
    subst hj
    refine (shapeCast_apply _ shapeCasts_S2x1x1_S2 (ix1 k) (ix3 k (0 : Fin 1) (0 : Fin 1)) (by
      rw [Shape.rowMajor_val_three, Shape.rowMajor_val_one]
      show (k.val * 1 + 0) * 1 + 0 = k.val
      omega)).trans ?_
    refine (extractStridedSlice_apply ![0, 0, 0] (fin part) slices_S2x8x128_S2x1x1_0_0_0 (ix3 k (0 : Fin 1) (0 : Fin 1))
      (ix3 k (0 : Fin 8) (0 : Fin 128)) (fun a => by
        match a with
        | ⟨0, _⟩ => show k.val = 0 + k.val; omega
        | ⟨1, _⟩ => rfl
        | ⟨2, _⟩ => rfl)).trans ?_
    rfl
  rw [e 0 _ rfl, e 1 _ rfl]
  rfl

/-- The accumulator arrays as the lines after the kernel region find them. -/
theorem arr_2 (c : Dev nD) : Pipeline.withArrays (cfgs 0).spec c (V0 m c) (fun w => (dats m 0 c).arrAt w (cfgs 0).N) (Proc.devRef .tc main_v2_0)
    = fin (blockTotal m sqd c) :=
  (Pipeline.withArrays_arr spec0 launch0.win.arr_inj c _ _ 2).trans (final_2 m c)
theorem arr_3 (c : Dev nD) : Pipeline.withArrays (cfgs 0).spec c (V0 m c) (fun w => (dats m 0 c).arrAt w (cfgs 0).N) (Proc.devRef .tc main_v2_1)
    = fin (blockTotal m tpv c) :=
  (Pipeline.withArrays_arr spec0 launch0.win.arr_inj c _ _ 3).trans (final_3 m c)
theorem arr_4 (c : Dev nD) : Pipeline.withArrays (cfgs 0).spec c (V0 m c) (fun w => (dats m 0 c).arrAt w (cfgs 0).N) (Proc.devRef .tc main_v2_2)
    = fin (blockTotal m lab c) :=
  (Pipeline.withArrays_arr spec0 launch0.win.arr_inj c _ _ 4).trans (final_4 m c)

set_option maxHeartbeats 2000000 in
/-- The lines after the kernel region compute `tail` of what the host makes of the three arrays. -/
theorem tail_read (c : Dev nD) :
    Pipeline.afterTail₀ cfgs (dats m) 0 (V0 m) [hostOps1, hostOps1_1, hostOps1_2, hostOps1_3, hostOps1_4] c main_v26
      = tail (F := Ideal)
          (hostSum (Pipeline.withArrays (cfgs 0).spec c (V0 m c) (fun w => (dats m 0 c).arrAt w (cfgs 0).N) (Proc.devRef .tc main_v2_0)))
          (hostSum (Pipeline.withArrays (cfgs 0).spec c (V0 m c) (fun w => (dats m 0 c).arrAt w (cfgs 0).N) (Proc.devRef .tc main_v2_1)))
          (subf (hostSum (Pipeline.withArrays (cfgs 0).spec c (V0 m c) (fun w => (dats m 0 c).arrAt w (cfgs 0).N) (Proc.devRef .tc main_v2_2)))
            (hostSum (Pipeline.withArrays (cfgs 0).spec c (V0 m c) (fun w => (dats m 0 c).arrAt w (cfgs 0).N) (Proc.devRef .tc main_v2_1)))) := by
  unfold Pipeline.afterTail₀
  simp only [hostOps1, hostOps1_1, hostOps1_2, hostOps1_3, hostOps1_4, List.flatten_cons, List.flatten_nil, List.append_nil, List.cons_append, List.nil_append]
  after_results_simp
  rfl

/-- The result in closed form. -/
theorem result_eq (c : Dev nD) :
    Pipeline.afterTail₀ cfgs (dats m) 0 (V0 m) [hostOps1, hostOps1_1, hostOps1_2, hostOps1_3, hostOps1_4] c main_v26
      = tail (F := Ideal)
          (fun _ => ∑ j : SArg.Idx, sqd (m ((c.tc : Thread nD τ).loc main_arg0) j) (m ((c.tc : Thread nD τ).loc main_arg1) j))
          (fun _ => ∑ j : SArg.Idx, tpv (m ((c.tc : Thread nD τ).loc main_arg0) j) (m ((c.tc : Thread nD τ).loc main_arg1) j))
          (fun _ => (∑ j : SArg.Idx, lab (m ((c.tc : Thread nD τ).loc main_arg0) j) (m ((c.tc : Thread nD τ).loc main_arg1) j))
            - ∑ j : SArg.Idx, tpv (m ((c.tc : Thread nD τ).loc main_arg0) j) (m ((c.tc : Thread nD τ).loc main_arg1) j)) := by
  rw [tail_read, arr_2, arr_3, arr_4, hostSum_fin, hostSum_fin, hostSum_fin, total_eq, total_eq, total_eq]
  rfl

/-- The idealized kernel's run: the result at `tail` of the three sums, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v26)
        = tail (F := Ideal)
            (fun _ => ∑ j : SArg.Idx, sqd (m ((c.tc : Thread nD τ).loc main_arg0) j) (m ((c.tc : Thread nD τ).loc main_arg1) j))
            (fun _ => ∑ j : SArg.Idx, tpv (m ((c.tc : Thread nD τ).loc main_arg0) j) (m ((c.tc : Thread nD τ).loc main_arg1) j))
            (fun _ => (∑ j : SArg.Idx, lab (m ((c.tc : Thread nD τ).loc main_arg0) j) (m ((c.tc : Thread nD τ).loc main_arg1) j))
              - ∑ j : SArg.Idx, tpv (m ((c.tc : Thread nD τ).loc main_arg0) j) (m ((c.tc : Thread nD τ).loc main_arg1) j))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v26 (Pipeline.mem_restRefs_of main_v26 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KRun

end
-- ==== Proof.RefValue.lean ====
/-
  The reference, read over the extended reals: its three whole-array sums are plain sums over all places of the
  per-element terms, and its result is the scalar formula `tail` of them.
-/
import proofs.«181688_j39127152066864_2_alg».proof.Proof.Gen.ReferenceIdeal.Run
import proofs.«181688_j39127152066864_2_alg».proof.Proof.Spec
import Idealize.ShloMosaic.PureOps.Ideal.Laws
import Idealize.ShloMosaic.Lib.ValueIdx

noncomputable section

open Idealize.ShloMosaic Idealize.ShloMosaic.TcCoe Idealize.ShloMosaic.ValueIdx Idealize.SL.Sem

namespace Cert.ReferenceIdeal.RefValue

open Cert.ReferenceIdeal Cert.ReferenceIdeal.Gen Cert.Bridge

/-- A host sum over both axes from the zero word is the plain sum over all places. -/
theorem reduce_all (x : FVec Ideal S64x1000000 .f32) (h : S64x1000000.ReducesTo [0, 1] S_) (hu : 0 < S_.numel) :
    Host.reduceAdd x (constant S_ .f32 0x00000000#32) h hu = fun _ => ∑ j : SArg.Idx, x j := by
  funext i
  show Ideal.hostReduceAdd h x (Ideal.ofBits .f32 0x00000000#32) i = _
  rw [Ideal.hostReduceAdd_total h (fun b => b.elim0), Ideal.ofBits_zero_f32, zero_add]

/-- The reference's run, read: its result is `tail` of the three sums over all places; the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25)
        = tail (F := Ideal)
            (fun _ => ∑ j : SArg.Idx, sqd (m ((c.tc : Thread nD τ).loc main_arg0) j) (m ((c.tc : Thread nD τ).loc main_arg1) j))
            (fun _ => ∑ j : SArg.Idx, tpv (m ((c.tc : Thread nD τ).loc main_arg0) j) (m ((c.tc : Thread nD τ).loc main_arg1) j))
            (fun _ => ∑ j : SArg.Idx, fnv (m ((c.tc : Thread nD τ).loc main_arg0) j) (m ((c.tc : Thread nD τ).loc main_arg1) j))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.ReferenceIdeal.Value.run (F := Ideal) m ρ)
  rw [reduce_all, reduce_all, reduce_all]
  rfl

end Cert.ReferenceIdeal.RefValue

end
-- ==== Proof.LabelsReal.lean ====
/-
  The precondition read back at the second argument array.

  The precondition says that, for each of the two argument arrays, the conjunction over all entries `x` of
  `|x| < +∞` is true, where `|x|` is `max x (-x)` on the extended reals and `+∞` is the value of the binary32 word
  `0x7F800000`, which is `⊤`. An extended real with `max x (-x) < ⊤` is neither `⊤` nor `⊥`, hence a real number.
-/
import proofs.«181688_j39127152066864_2_alg».proof.Proof.Spec
import proofs.«181688_j39127152066864_2_alg».proof.Defs
import Idealize.ShloMosaic.Lib.ReduceAll
import Idealize.ShloMosaic.PureOps.Ideal.Laws

noncomputable section

namespace Cert.Bridge

open Idealize.ShloMosaic Idealize.ShloMosaic.ValueIdx Idealize.SL.Sem

namespace LabelsReal

/-- The binary32 word of `+∞` denotes `⊤`. -/
theorem ofBits_inf : Ideal.ofBits .f32 0x7F800000#32 = ⊤ := by simp [Ideal.ofBits, Ideal.ieee]

/-- An extended real whose absolute value `max x (-x)` lies strictly below `⊤` is a real number:
    at `⊥` the maximum is `-⊥ = ⊤`, at `⊤` it is `⊤`. -/
theorem real_of_abs_lt_top (x : EReal) (h : max x (-x) < ⊤) : ∃ r : ℝ, x = (r : EReal) := by
  induction x using EReal.rec with
  | bot => simp at h
  | top => simp at h
  | coe r => exact ⟨r, rfl⟩

/-- A one-bit word `BitVec.ofBool b` is one exactly when `b` is true. -/
theorem ofBool_eq_one (b : Bool) : BitVec.ofBool b = 1#1 ↔ b = true := by cases b <;> decide

/-- One entry: if the comparison `|x| < +∞` comes out one, `x` is a real number. -/
theorem real_of_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  rw [ofBool_eq_one] at h'
  exact real_of_abs_lt_top _ (of_decide_eq_true h')

end LabelsReal

/-- Every entry of the second argument array is a real number: the precondition's conjunction is one, so its second
    conjunct is one; that conjunct is the conjunction over all entries of `|x| < +∞`, so each entry's comparison is one. -/
theorem labels_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (j : SArg.Idx) :
    ∃ r : ℝ, m ((c.tc : Thread Cert.KernelIdeal.nD Cert.KernelIdeal.τ).loc Cert.KernelIdeal.main_arg1) j = (r : EReal) := by
  -- the scalar shape has one index
  haveI : Subsingleton Cert.Pre_finite_inputs.S_.Idx := ⟨fun a b => funext fun d => d.elim0⟩
  have h := congrFun (hpre c) ValueIdx.ix0
  dsimp only [Cert.Pre_finite_inputs.fn] at h
  obtain ⟨-, h2⟩ := IntOp.andi_eq_one.1 h
  have h3 := Host.reduce_andi_all _ _ _ _ _ h2 j
  exact LabelsReal.real_of_olt_inf _ h3

end Cert.Bridge

end
-- ==== Proof.lean ====
/-
  The certificate: a streaming loss kernel against its plain reference.

  Both programs take two 64 × 1000000 arrays, the outputs `o` and the labels `l`, and return one number,
  `tail (Σ (o - l)²) (Σ l·[o > 1/2]) FN`: the mean squared difference plus half the negated logarithm of a guarded ratio
  of the two counts. They differ in how the sums are taken and in `FN`.

  The kernel re-lays each array as a 3125 × 20480 matrix and walks its 80 column blocks of width 256, adding each block's
  totals into running sums that restart after 40 blocks; the host adds the two halves. Over the extended reals addition
  is commutative and associative, the blocks tile the matrix and the re-laying is a bijection of places, so each kernel
  sum is the reference's sum over all places. For `FN` the kernel takes `Σ l - Σ l·[o > 1/2]` where the reference sums
  `l · (1 - [o > 1/2])`: equal when every label is a real number, which is what the precondition says of the inputs.
  Nothing was rewritten by the idealization, so that claim is trivial; the two kernel programs terminate and keep their
  arguments by their frame runs, and the reference by its run read back.
-/
import proofs.«181688_j39127152066864_2_alg».proof.Defs
import proofs.«181688_j39127152066864_2_alg».proof.Proof.Gen.Kernel
import proofs.«181688_j39127152066864_2_alg».proof.Proof.Gen.Kernel.Frame
import proofs.«181688_j39127152066864_2_alg».proof.Proof.Gen.KernelIdeal
import proofs.«181688_j39127152066864_2_alg».proof.Proof.Gen.KernelIdeal.Frame
import proofs.«181688_j39127152066864_2_alg».proof.Proof.Gen.ReferenceIdeal
import proofs.«181688_j39127152066864_2_alg».proof.Proof.Gen.ReferenceIdeal.Run
import proofs.«181688_j39127152066864_2_alg».proof.Proof.Gen.Pre_finite_inputs
import proofs.«181688_j39127152066864_2_alg».proof.Proof.KernelRun
import proofs.«181688_j39127152066864_2_alg».proof.Proof.RefValue
import proofs.«181688_j39127152066864_2_alg».proof.Proof.LabelsReal
import proofs.«181688_j39127152066864_2_alg».proof.Proof.Sums
import Idealize.ShloMosaic.Adequacy
import Idealize.ShloMosaic.Init

noncomputable section

namespace Cert.Proof

open Idealize.ShloMosaic Idealize.SL.Sem Cert.Bridge

/-- The two kernel programs terminate without a fault and keep their arguments: their frame runs. -/
theorem frame_k : Cert.frame_Kernel := fun m ρ _ => Cert.Kernel.Gen.frame m ρ
theorem frame_ki : Cert.frame_KernelIdeal := fun m ρ _ => Cert.KernelIdeal.Gen.frame m ρ

/-- The reference terminates and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at `tail` of the three sums over all places: the kernel's third argument, the labels summed minus
    the labels counted where the output passes one half, is the reference's sum of the labels counted where it does
    not, because the precondition makes every label a real number. -/
theorem algebraic : Cert.algebraic_KernelIdeal_ReferenceIdeal := by
  intro m ρ m' ρ' hpre hagree
  refine ⟨fun c => tail (F := Ideal)
      (fun _ => ∑ j : SArg.Idx, sqd (m ((c.tc : Thread Cert.KernelIdeal.nD Cert.KernelIdeal.τ).loc Cert.KernelIdeal.main_arg0) j)
        (m ((c.tc : Thread Cert.KernelIdeal.nD Cert.KernelIdeal.τ).loc Cert.KernelIdeal.main_arg1) j))
      (fun _ => ∑ j : SArg.Idx, tpv (m ((c.tc : Thread Cert.KernelIdeal.nD Cert.KernelIdeal.τ).loc Cert.KernelIdeal.main_arg0) j)
        (m ((c.tc : Thread Cert.KernelIdeal.nD Cert.KernelIdeal.τ).loc Cert.KernelIdeal.main_arg1) j))
      (fun _ => ∑ j : SArg.Idx, fnv (m ((c.tc : Thread Cert.KernelIdeal.nD Cert.KernelIdeal.τ).loc Cert.KernelIdeal.main_arg0) j)
        (m ((c.tc : Thread Cert.KernelIdeal.nD Cert.KernelIdeal.τ).loc Cert.KernelIdeal.main_arg1) j)), ?_, ?_⟩
  · refine (θ_run Cert.KernelIdeal.defs _ _).mono (fun _ h c => ⟨(h c).1.trans ?_, (h c).2⟩) (Cert.KernelIdeal.KRun.run m ρ)
    refine congrArg (tail (F := Ideal) _ _) (funext fun _ => ?_)
    exact fn_law (fun j => m ((c.tc : Thread Cert.KernelIdeal.nD Cert.KernelIdeal.τ).loc Cert.KernelIdeal.main_arg0) j)
      (fun j => m ((c.tc : Thread Cert.KernelIdeal.nD Cert.KernelIdeal.τ).loc Cert.KernelIdeal.main_arg1) j)
      (fun j => labels_real m hpre c j)
  · refine (θ_run Cert.ReferenceIdeal.defs _ _).mono (fun _ h c => ⟨(h c).1.trans ?_, (h c).2⟩)
      (Cert.ReferenceIdeal.RefValue.run m' ρ')
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
